-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S64x160 : Shape := ⟨2, ![64, 160]⟩
abbrev S64 : Shape := ⟨1, ![64]⟩
abbrev S64x64 : Shape := ⟨2, ![64, 64]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x160 : S_.BroadcastsInDim S64x160 (![] : Fin 0 → Fin S64x160.rank)
  reducesTo_S64x160_S_d0_1 : S64x160.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x128 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S1600000x32 .f32) (main_arg3 : FVec F S64x160 .f32) (main_arg4 : FVec F S64 .f32) (main_arg5 : FVec F S64x64 .f32) (main_arg6 : FVec F S64 .f32) (main_arg7 : FVec F S64x128 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x160 .f32 := Host.absf main_arg3
  let main_cst_2 : FVec F S_ .f32 := constant S_ .f32 0x7F800000#32
  let main_v10 : FVec F S64x160 .f32 := broadcastInDim S64x160 ![] bcast_S_S64x160 main_cst_2
  let main_v11 : IVec S64x160 1 := cmpf .olt main_v9 main_v10
  let main_c_3 : IVec S_ 1 := constantI S_ 1 1#1
  let main_v12 : IVec S_ 1 := (fun x v => Host.reduce IntOp.andi x v reducesTo_S64x160_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S64x160 : Shape := ⟨2, ![64, 160]⟩
abbrev S64 : Shape := ⟨1, ![64]⟩
abbrev S64x64 : Shape := ⟨2, ![64, 64]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S160x64 : Shape := ⟨2, ![160, 64]⟩
abbrev S128x64 : Shape := ⟨2, ![128, 64]⟩
abbrev S1x64 : Shape := ⟨2, ![1, 64]⟩
abbrev S8000x64 : Shape := ⟨2, ![8000, 64]⟩
abbrev S8000x32 : Shape := ⟨2, ![8000, 32]⟩
abbrev S8000x160 : Shape := ⟨2, ![8000, 160]⟩
abbrev S10000x64 : Shape := ⟨2, ![10000, 64]⟩
abbrev S10000x128 : Shape := ⟨2, ![10000, 128]⟩

abbrev nBuf : Space → Nat
  | .hbm => 47
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x160, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S160x64, .f32⟩
  | .hbm, ⟨34, _⟩ => ⟨S64x64, .f32⟩
  | .hbm, ⟨35, _⟩ => ⟨S128x64, .f32⟩
  | .hbm, ⟨36, _⟩ => ⟨S64x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S160x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S128x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x160_S160x64_1_0 : S64x160.Transposes [1, 0] S160x64
  transposes_S64x64_S64x64_1_0 : S64x64.Transposes [1, 0] S64x64
  transposes_S64x128_S128x64_1_0 : S64x128.Transposes [1, 0] S128x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  concatenates_S8000x64_S8000x64_S8000x32_S8000x160_d1 : Shape.Concatenates [S8000x64, S8000x64, S8000x32] S8000x160 1
  inb_S160x64_S160x64_0_0 : ∀ a, (![0, 0] : Fin 2 → Nat) a + S160x64.size a ≤ S160x64.size a
  h_S160x64 : 0 < S160x64.numel
  shapeCasts_S160x64_S160x64 : S160x64.ShapeCasts S160x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S8000x160_S160x64_S8000x64_1_0_0_1_n_n_wf : DotDims.WF S8000x160 S160x64 S8000x64 [1] [0] [0] [1] [] []
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x64.size a ≤ S160x64.size a
  hwx0_3 : ∀ i : grid0.Coords, EltTy.bits .f32 = 32 ∨ (Rect.block (s := S160x64) S160x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1600000x64.size a
  hwx0_7 : ∀ i : grid0.Coords, EltTy.bits .f32 = 32 ∨ (Rect.block (s := S1600000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x160_S160x64_S8000x64_1_0_0_1_n_n : DotDims S8000x160 S160x64 S8000x64 where
  lhsContracting := [1]
  rhsContracting := [0]
  lhsNonContracting := [0]
  rhsNonContracting := [1]
  lhsBatch := []
  rhsBatch := []
  wf := dot_S8000x160_S160x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S160x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S64x160 : Shape := ⟨2, ![64, 160]⟩
abbrev S64 : Shape := ⟨1, ![64]⟩
abbrev S64x64 : Shape := ⟨2, ![64, 64]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S160x64 : Shape := ⟨2, ![160, 64]⟩
abbrev S1x64 : Shape := ⟨2, ![1, 64]⟩
abbrev S100000x128 : Shape := ⟨2, ![100000, 128]⟩
abbrev S128x64 : Shape := ⟨2, ![128, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x160, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x160, .f32⟩
  | .hbm, ⟨34, _⟩ => ⟨S160x64, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S1600000x64, .f32⟩
  | .hbm, ⟨46, _⟩ => ⟨S1600000x64, .f32⟩
  | .hbm, ⟨47, _⟩ => ⟨S1600000x64, .f32⟩
  | .hbm, ⟨48, _⟩ => ⟨S64x64, .f32⟩
  | .hbm, ⟨49, _⟩ => ⟨S1600000x64, .f32⟩
  | .hbm, ⟨50, _⟩ => ⟨S1x64, .f32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x128, .f32⟩
  | .hbm, ⟨67, _⟩ => ⟨S128x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v30 : Ref sig .tc := ⟨.hbm, 61, rfl⟩
abbrev main_cst : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  transposes_S64x160_S160x64_1_0 : S64x160.Transposes [1, 0] S160x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S64x64_S64x64_1_0 : S64x64.Transposes [1, 0] S64x64
  bcast_S_S100000x64 : S_.BroadcastsInDim S100000x64 (![] : Fin 0 → Fin S100000x64.rank)
  concatenates_S100000x64_S100000x64_S100000x128_d1 : Shape.Concatenates [S100000x64, S100000x64] S100000x128 1
  transposes_S64x128_S128x64_1_0 : S64x128.Transposes [1, 0] S128x64
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x160_S160x64_S1600000x64_1_0_0_1_n_n_wf : DotDims.WF S1600000x160 S160x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibRowConcat.lean ====
/-
  Arrays of R rows joined along their second axis, read at an entry: the entry (p, j) of the join of an [R, 64],
  an [R, 64] and an [R, 32] array is entry j of row p of the first, the second or the third according to where j
  falls among 0..63, 64..127, 128..159; likewise for two [R, 64] arrays. The row p of the join is therefore the
  join of the rows p — for any number of rows R.
-/
import Idealize.ShloMosaic.Lib.Pipeline.Value
import Idealize.ShloMosaic.Lib.ValueIdx

noncomputable section

namespace Idealize.ShloMosaic.RowConcat

open Idealize.ShloMosaic Idealize.ShloMosaic.ValueIdx

variable {α : Type}

/-- Row r of an [R, C] array. -/
abbrev rowOf {R C : ℕ} (x : (⟨2, ![R, C]⟩ : Shape).Idx → α) (r : Fin R) : Fin C → α := fun k => x (ix2 r k)

/-- Three rows side by side: entries 0..63 from a, 64..127 from b, 128..159 from f. -/
def cat3 (a b : Fin 64 → α) (f : Fin 32 → α) (j : Fin 160) : α :=
  if h : j.val < 64 then a ⟨j.val, h⟩
  else if h2 : j.val < 128 then b ⟨j.val - 64, by omega⟩
  else f ⟨j.val - 128, by have := j.isLt; omega⟩

/-- Two rows side by side: entries 0..63 from a, 64..127 from g. -/
def cat2 (a g : Fin 64 → α) (j : Fin 128) : α :=
  if h : j.val < 64 then a ⟨j.val, h⟩ else g ⟨j.val - 64, by have := j.isLt; omega⟩

/-- The join of three arrays of R rows along the second axis, at (p, j): the rows p side by side, at j. -/
theorem cat3_apply {R : ℕ} (v1 v3 : (⟨2, ![R, 64]⟩ : Shape).Idx → α) (v4 : (⟨2, ![R, 32]⟩ : Shape).Idx → α)
    (h : Shape.Concatenates (([⟨⟨2, ![R, 64]⟩, v1⟩, ⟨⟨2, ![R, 64]⟩, v3⟩, ⟨⟨2, ![R, 32]⟩, v4⟩] :
      List ((s : Shape) × (s.Idx → α))).map (·.1)) ⟨2, ![R, 160]⟩ 1)
    (p : Fin R) (j : Fin 160) :
    concatenate ⟨2, ![R, 160]⟩ 1 [⟨⟨2, ![R, 64]⟩, v1⟩, ⟨⟨2, ![R, 64]⟩, v3⟩, ⟨⟨2, ![R, 32]⟩, v4⟩] h (ix2 p j)
      = cat3 (rowOf v1 p) (rowOf v3 p) (rowOf v4 p) j := by
  unfold cat3
  by_cases h1 : j.val < 64
  · rw [dif_pos h1]
    exact concatenate_apply_piece (1 : Fin 2) _ h (ix2 p j) 0 (by simp) ⟨2, ![R, 64]⟩ v1 rfl rfl 0 rfl
      (ix2 p ⟨j.val, h1⟩)
      (fun b hb => by match b with | ⟨0, _⟩ => rfl | ⟨1, _⟩ => exact absurd rfl hb)
      (by show 0 + j.val = j.val; omega)
  · rw [dif_neg h1]
    by_cases h2 : j.val < 128
    · rw [dif_pos h2]
      exact concatenate_apply_piece (1 : Fin 2) _ h (ix2 p j) 1 (by simp) ⟨2, ![R, 64]⟩ v3 rfl rfl 64 rfl
        (ix2 p ⟨j.val - 64, by omega⟩)
        (fun b hb => by match b with | ⟨0, _⟩ => rfl | ⟨1, _⟩ => exact absurd rfl hb)
        (by show 64 + (j.val - 64) = j.val; omega)
    · rw [dif_neg h2]
      exact concatenate_apply_piece (1 : Fin 2) _ h (ix2 p j) 2 (by simp) ⟨2, ![R, 32]⟩ v4 rfl rfl 128 rfl
        (ix2 p ⟨j.val - 128, by have := j.isLt; omega⟩)
        (fun b hb => by match b with | ⟨0, _⟩ => rfl | ⟨1, _⟩ => exact absurd rfl hb)
        (by show 128 + (j.val - 128) = j.val; omega)

/-- The join of two arrays of R rows along the second axis, at (p, j). -/
theorem cat2_apply {R : ℕ} (v0 v2 : (⟨2, ![R, 64]⟩ : Shape).Idx → α)
    (h : Shape.Concatenates (([⟨⟨2, ![R, 64]⟩, v0⟩, ⟨⟨2, ![R, 64]⟩, v2⟩] :
      List ((s : Shape) × (s.Idx → α))).map (·.1)) ⟨2, ![R, 128]⟩ 1)
    (p : Fin R) (j : Fin 128) :
    concatenate ⟨2, ![R, 128]⟩ 1 [⟨⟨2, ![R, 64]⟩, v0⟩, ⟨⟨2, ![R, 64]⟩, v2⟩] h (ix2 p j)
      = cat2 (rowOf v0 p) (rowOf v2 p) j := by
  unfold cat2
  by_cases h1 : j.val < 64
  · rw [dif_pos h1]
    exact concatenate_apply_piece (1 : Fin 2) _ h (ix2 p j) 0 (by simp) ⟨2, ![R, 64]⟩ v0 rfl rfl 0 rfl
      (ix2 p ⟨j.val, h1⟩)
      (fun b hb => by match b with | ⟨0, _⟩ => rfl | ⟨1, _⟩ => exact absurd rfl hb)
      (by show 0 + j.val = j.val; omega)
  · rw [dif_neg h1]
    exact concatenate_apply_piece (1 : Fin 2) _ h (ix2 p j) 1 (by simp) ⟨2, ![R, 64]⟩ v2 rfl rfl 64 rfl
      (ix2 p ⟨j.val - 64, by have := j.isLt; omega⟩)
      (fun b hb => by match b with | ⟨0, _⟩ => rfl | ⟨1, _⟩ => exact absurd rfl hb)
      (by show 64 + (j.val - 64) = j.val; omega)

end Idealize.ShloMosaic.RowConcat

end
-- ==== Proof.Spec.lean ====
/-
  The mathematics of one message-passing layer, row by row, on the extended reals.

  An EDGE row e carries the two endpoint feature rows a = x[row e], b = x[col e] (64 entries each) and the edge's
  own features f (32 entries). Its message is
      silu( silu( [a | b | f] · W₁ + β₁ ) · W₂ + β₂ ),
  where [a | b | f] is the three rows laid side by side (160 entries), a dense layer is
  (x · W + β)(q) = (∑ₖ xₖ · W(k, q)) + β(q), and silu z = z · σ(z) with σ the logistic function 1 / (1 + e⁻ᶻ).
  A NODE row n carries its own features a = x[n] and the sum g of the messages scattered to it, and its result is
      silu( [a | g] · V₁ + γ₁ ) · V₂ + γ₂.
  Everything here is a function of ONE row of each data array: that is why the value of a block of rows is the
  block of the values, whatever the block's height.
-/
import Idealize.ShloMosaic.PureOps.Ideal
import Idealize.ShloMosaic.Lib.ValueIdx
import proofs.«133632_j5686536699929_1_alg».proof.Proof.LibRowConcat

noncomputable section

namespace Cert.Mlp

open Idealize.ShloMosaic Idealize.ShloMosaic.ValueIdx Idealize.ShloMosaic.RowConcat

/-- silu z = z · σ(z), σ the logistic function. -/
def silu (z : EReal) : EReal := z * Ideal.logistic z

/-- One dense layer on one row x of K entries: entry q of x · W + β. -/
def dense {K : ℕ} (x : Fin K → EReal) (w : Fin K → Fin 64 → EReal) (b : Fin 64 → EReal) (q : Fin 64) : EReal :=
  (∑ k : Fin K, x k * w k q) + b q

/-- The message of one edge row. -/
def edgeRow (a b : Fin 64 → EReal) (f : Fin 32 → EReal) (w1 : Fin 160 → Fin 64 → EReal) (b1 : Fin 64 → EReal)
    (w2 : Fin 64 → Fin 64 → EReal) (b2 : Fin 64 → EReal) (q : Fin 64) : EReal :=
  silu (dense (fun k => silu (dense (cat3 a b f) w1 b1 k)) w2 b2 q)

/-- The result of one node row. -/
def nodeRow (a g : Fin 64 → EReal) (w1 : Fin 128 → Fin 64 → EReal) (b1 : Fin 64 → EReal)
    (w2 : Fin 64 → Fin 64 → EReal) (b2 : Fin 64 → EReal) (q : Fin 64) : EReal :=
  dense (fun k => silu (dense (cat2 a g) w1 b1 k)) w2 b2 q

/-- The messages of R edge rows: row r from row r of each data array. -/
def edgeArr {R : ℕ} (xi xj : (⟨2, ![R, 64]⟩ : Shape).Idx → EReal) (ef : (⟨2, ![R, 32]⟩ : Shape).Idx → EReal)
    (w1 : Fin 160 → Fin 64 → EReal) (b1 : Fin 64 → EReal) (w2 : Fin 64 → Fin 64 → EReal) (b2 : Fin 64 → EReal) :
    (⟨2, ![R, 64]⟩ : Shape).Idx → EReal :=
  fun i => edgeRow (rowOf xi (i 0)) (rowOf xj (i 0)) (rowOf ef (i 0)) w1 b1 w2 b2 (i 1)

/-- The results of R node rows. -/
def nodeArr {R : ℕ} (x g : (⟨2, ![R, 64]⟩ : Shape).Idx → EReal)
    (w1 : Fin 128 → Fin 64 → EReal) (b1 : Fin 64 → EReal) (w2 : Fin 64 → Fin 64 → EReal) (b2 : Fin 64 → EReal) :
    (⟨2, ![R, 64]⟩ : Shape).Idx → EReal :=
  fun i => nodeRow (rowOf x (i 0)) (rowOf g (i 0)) w1 b1 w2 b2 (i 1)

theorem edgeArr_apply {R : ℕ} (xi xj : (⟨2, ![R, 64]⟩ : Shape).Idx → EReal) (ef : (⟨2, ![R, 32]⟩ : Shape).Idx → EReal)
    (w1 : Fin 160 → Fin 64 → EReal) (b1 : Fin 64 → EReal) (w2 : Fin 64 → Fin 64 → EReal) (b2 : Fin 64 → EReal)
    (r : Fin R) (q : Fin 64) :
    edgeArr xi xj ef w1 b1 w2 b2 (ix2 r q) = edgeRow (rowOf xi r) (rowOf xj r) (rowOf ef r) w1 b1 w2 b2 q := rfl

theorem nodeArr_apply {R : ℕ} (x g : (⟨2, ![R, 64]⟩ : Shape).Idx → EReal)
    (w1 : Fin 128 → Fin 64 → EReal) (b1 : Fin 64 → EReal) (w2 : Fin 64 → Fin 64 → EReal) (b2 : Fin 64 → EReal)
    (r : Fin R) (q : Fin 64) :
    nodeArr x g w1 b1 w2 b2 (ix2 r q) = nodeRow (rowOf x r) (rowOf g r) w1 b1 w2 b2 q := rfl

/-- A weight matrix stored [out, in], read as the layer uses it: in → out. -/
abbrev wT {K : ℕ} (W : (⟨2, ![64, K]⟩ : Shape).Idx → EReal) : Fin K → Fin 64 → EReal := fun k q => W (ix2 q k)

/-- A bias vector as a function of the output position. -/
abbrev bv (b : (⟨1, ![64]⟩ : Shape).Idx → EReal) : Fin 64 → EReal := fun q => b (ix1 q)

end Cert.Mlp

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.DenseBlock.lean ====
/-
  A dense layer as a kernel computes it on a block of R rows — the matrix product of the block by the weights into a
  zero accumulator, plus the one bias row repeated over the rows — read at an entry (p, q): it is the dense layer of
  the specification applied to row p of the block. With the silu after it, the same.
-/
import proofs.«133632_j5686536699929_1_alg».proof.Proof.Spec
import proofs.«133632_j5686536699929_1_alg».proof.Proof.LibPlainDot
import Idealize.ShloMosaic.Lib.ValueLayout

noncomputable section

namespace Cert.Mlp

open Idealize.ShloMosaic Idealize.ShloMosaic.ValueIdx Idealize.ShloMosaic.RowConcat Idealize.ShloMosaic.PlainDot

variable {R K : ℕ} {d : DotDims ⟨2, ![R, K]⟩ ⟨2, ![K, 64]⟩ ⟨2, ![R, 64]⟩}

/-- Entry (p, q) of X · W + (bias row): the dense layer on row p of X. -/
theorem dense_block (hd : IsPlain d) {φ₁ φ₂ : FTy} (X : FVec Ideal ⟨2, ![R, K]⟩ φ₁) (W : FVec Ideal ⟨2, ![K, 64]⟩ φ₂)
    (B : FVec Ideal ⟨2, ![1, 64]⟩ .f32) (hB : (⟨2, ![1, 64]⟩ : Shape).Broadcasts ⟨2, ![R, 64]⟩) (p : Fin R) (q : Fin 64) :
    addf (matmul d none X W (constant ⟨2, ![R, 64]⟩ .f32 0x00000000#32)) (broadcastTo ⟨2, ![R, 64]⟩ B hB) (ix2 p q)
      = dense (rowOf X p) (fun k q => W (ix2 k q)) (fun q => B (ix2 0 q)) q := by
  show FloatOps.matmul d none X W (constant ⟨2, ![R, 64]⟩ .f32 0x00000000#32) (ix2 p q)
      + broadcastTo ⟨2, ![R, 64]⟩ B hB (ix2 p q) = _
  rw [matmul_zero_apply hd, broadcastTo_1b_ab_apply]
  rfl

/-- Entry (p, q) of silu (X · W + bias row), the silu spelt z · σ(z) with the kernel's logistic operation. -/
theorem silu_dense_block (hd : IsPlain d) {φ₁ φ₂ : FTy} (X : FVec Ideal ⟨2, ![R, K]⟩ φ₁) (W : FVec Ideal ⟨2, ![K, 64]⟩ φ₂)
    (B : FVec Ideal ⟨2, ![1, 64]⟩ .f32) (hB : (⟨2, ![1, 64]⟩ : Shape).Broadcasts ⟨2, ![R, 64]⟩) (p : Fin R) (q : Fin 64) :
    mulf (addf (matmul d none X W (constant ⟨2, ![R, 64]⟩ .f32 0x00000000#32)) (broadcastTo ⟨2, ![R, 64]⟩ B hB))
        (logistic (addf (matmul d none X W (constant ⟨2, ![R, 64]⟩ .f32 0x00000000#32)) (broadcastTo ⟨2, ![R, 64]⟩ B hB)))
        (ix2 p q)
      = silu (dense (rowOf X p) (fun k q => W (ix2 k q)) (fun q => B (ix2 0 q)) q) := by
  have e := dense_block hd X W B hB p q
  unfold silu
  rw [← e]
  rfl

end Cert.Mlp

end
-- ==== Proof.EdgeBody.lean ====
/-
  What the edge kernel stores for a block of 8000 edge rows, read at an entry (p, q): the message of edge row p of
  the block — the two endpoint rows and the edge's feature row side by side, through the two dense layers with their
  silus — at position q. The block's height plays no part: each row's message is a function of that row alone.
-/
import proofs.«133632_j5686536699929_1_alg».proof.Proof.Gen.KernelIdeal.Skeleton
import proofs.«133632_j5686536699929_1_alg».proof.Proof.DenseBlock
import Idealize.ShloMosaic.Lib.Pipeline.Value

noncomputable section

namespace Cert.KernelIdeal.Body

open Cert.KernelIdeal Cert.KernelIdeal.Gen Idealize.ShloMosaic Idealize.ShloMosaic.ValueIdx Idealize.ShloMosaic.RowConcat
open Idealize.ShloMosaic.PlainDot Cert.Mlp

theorem plain_e1 : IsPlain dot_S8000x160_S160x64_S8000x64_1_0_0_1_n_n := ⟨rfl, rfl, rfl, rfl, rfl, rfl⟩
theorem plain_e2 : IsPlain dot_S8000x64_S64x64_S8000x64_1_0_0_1_n_n := ⟨rfl, rfl, rfl, rfl, rfl, rfl⟩

/-- The edge kernel's stored block at (p, q) is the message of the block's row p, at q. -/
theorem edge_pay (x0 x1 : Vec Ideal S8000x64 .f32) (x2 : Vec Ideal S8000x32 .f32) (x3 : Vec Ideal S160x64 .f32)
    (x4 : Vec Ideal S1x64 .f32) (x5 : Vec Ideal S64x64 .f32) (x6 : Vec Ideal S1x64 .f32) (p : Fin 8000) (q : Fin 64) :
    k0_pay1 x0 x1 x2 x3 x4 x5 x6 (ix2 p q)
      = edgeRow (rowOf x0 p) (rowOf x1 p) (rowOf x2 p) (fun k q => x3 (ix2 k q)) (fun q => x4 (ix2 0 q))
          (fun k q => x5 (ix2 k q)) (fun q => x6 (ix2 0 q)) q := by
  unfold k0_pay1
  simp only [shapeCast_self]
  rw [silu_dense_block plain_e2]
  unfold edgeRow
  refine congrArg (fun x => silu (dense x _ _ q)) (funext fun k => ?_)
  show mulf (F := Ideal) _ (logistic _) (ix2 p k) = _
  rw [silu_dense_block plain_e1]
  refine congrArg (fun x => silu (dense x _ _ k)) (funext fun j => ?_)
  have hc := cat3_apply (shapeCast S8000x64 x0 shapeCasts_S8000x64_S8000x64) (shapeCast S8000x64 x1 shapeCasts_S8000x64_S8000x64) x2
    concatenates_S8000x64_S8000x64_S8000x32_S8000x160_d1 p j
  exact hc.trans (by simp only [shapeCast_self])

end Cert.KernelIdeal.Body

end
-- ==== Proof.EdgeBlock.lean ====
/-
  A block of 8000 consecutive edge rows, starting at row T · 8000, against the whole arrays of 1 600 000 rows: what
  the edge kernel stores for the block at (p, q) is the message of edge row T · 8000 + p at q — the whole-array
  function read at that row. The three data blocks are the rows T · 8000 … T · 8000 + 7999 of their arrays; the
  weight and bias blocks are their whole arrays.
-/
import proofs.«133632_j5686536699929_1_alg».proof.Proof.EdgeBody

noncomputable section

namespace Cert.KernelIdeal.Body

open Cert.KernelIdeal Cert.KernelIdeal.Gen Idealize.ShloMosaic Idealize.ShloMosaic.ValueIdx Idealize.ShloMosaic.RowConcat
open Cert.Mlp

/-- An index map that keeps every coordinate is the identity. -/
theorem emb_id {s : Shape} (e : s.Idx → s.Idx) (he : ∀ y a, (e y a).val = (y a).val) (y : s.Idx) : e y = y :=
  funext fun a => Fin.ext (he y a)

/-- Row p of a block whose rows are the rows T · 8000 + p of an array is that row of the array. -/
theorem row_of_block {C : ℕ} (X : (⟨2, ![1600000, C]⟩ : Shape).Idx → EReal)
    (e : (⟨2, ![8000, C]⟩ : Shape).Idx → (⟨2, ![1600000, C]⟩ : Shape).Idx) (T : ℕ)
    (he : ∀ y, (e y 0).val = T * 8000 + (y 0).val ∧ (e y 1).val = (y 1).val)
    (p : Fin 8000) (r : Fin 1600000) (hr : r.val = T * 8000 + p.val) :
    rowOf (fun y => X (e y)) p = rowOf X r := by
  funext k
  show X (e (ix2 p k)) = X (ix2 r k)
  refine congrArg X (funext fun a => Fin.ext ?_)
  match a with
  | ⟨0, _⟩ => exact ((he (ix2 p k)).1).trans hr.symm
  | ⟨1, _⟩ => exact (he (ix2 p k)).2

/-- The edge kernel's stored block, at the block index j, is the whole-array message function at the array index i
    that j lands on (row T · 8000 + j₀, column j₁). -/
theorem edge_block (xi xj : FVec Ideal S1600000x64 .f32) (ef : FVec Ideal S1600000x32 .f32)
    (W3 : FVec Ideal S160x64 .f32) (W4 : FVec Ideal S1x64 .f32) (W5 : FVec Ideal S64x64 .f32) (W6 : FVec Ideal S1x64 .f32)
    (T : ℕ)
    (e0 e1 : S8000x64.Idx → S1600000x64.Idx) (e2 : S8000x32.Idx → S1600000x32.Idx)
    (e3 : S160x64.Idx → S160x64.Idx) (e4 : S1x64.Idx → S1x64.Idx) (e5 : S64x64.Idx → S64x64.Idx) (e6 : S1x64.Idx → S1x64.Idx)
    (he0 : ∀ y, (e0 y 0).val = T * 8000 + (y 0).val ∧ (e0 y 1).val = (y 1).val)
    (he1 : ∀ y, (e1 y 0).val = T * 8000 + (y 0).val ∧ (e1 y 1).val = (y 1).val)
    (he2 : ∀ y, (e2 y 0).val = T * 8000 + (y 0).val ∧ (e2 y 1).val = (y 1).val)
    (he3 : ∀ y a, (e3 y a).val = (y a).val) (he4 : ∀ y a, (e4 y a).val = (y a).val)
    (he5 : ∀ y a, (e5 y a).val = (y a).val) (he6 : ∀ y a, (e6 y a).val = (y a).val)
    (j : S8000x64.Idx) (i : S1600000x64.Idx) (hi0 : (i 0).val = T * 8000 + (j 0).val) (hi1 : (i 1).val = (j 1).val) :
    k0_pay1 (F := Ideal) (fun y => xi (e0 y)) (fun y => xj (e1 y)) (fun y => ef (e2 y)) (fun y => W3 (e3 y)) (fun y => W4 (e4 y))
        (fun y => W5 (e5 y)) (fun y => W6 (e6 y)) j
      = edgeArr xi xj ef (fun k q => W3 (ix2 k q)) (fun q => W4 (ix2 0 q)) (fun k q => W5 (ix2 k q)) (fun q => W6 (ix2 0 q)) i := by
  obtain ⟨p, q, rfl⟩ : ∃ (p : Fin 8000) (q : Fin 64), j = ix2 p q := ⟨j 0, j 1, eq_ix2 j⟩
  obtain ⟨r, q', rfl⟩ : ∃ (r : Fin 1600000) (q' : Fin 64), i = ix2 r q' := ⟨i 0, i 1, eq_ix2 i⟩
  have hq : q' = q := Fin.ext hi1
  subst hq
  have hr : r.val = T * 8000 + p.val := hi0
  rw [edge_pay, edgeArr_apply, row_of_block xi e0 T he0 p r hr, row_of_block xj e1 T he1 p r hr,
    row_of_block ef e2 T he2 p r hr]
  simp only [emb_id e3 he3, emb_id e4 he4, emb_id e5 he5, emb_id e6 he6]

end Cert.KernelIdeal.Body

end
-- ==== Proof.EdgeArr.lean ====
/-
  The edge region's result array after its 200 grid points: the whole-array message function of the arrays the region
  finds at entry. Point t stages rows t · 8000 … t · 8000 + 7999 of the three data arrays and the whole weight and
  bias arrays, and writes back rows t · 8000 … t · 8000 + 7999 of the result; each written block is the message
  function's block, and the 200 blocks cover the 1 600 000 rows (row r lies in block r / 8000).
-/
import proofs.«133632_j5686536699929_1_alg».proof.Proof.Gen.KernelIdeal.Frame
import proofs.«133632_j5686536699929_1_alg».proof.Proof.EdgeBlock

set_option maxRecDepth 16384

noncomputable section

namespace Cert.KernelIdeal.EdgeArr

open Cert.KernelIdeal Cert.KernelIdeal.Gen Cert.KernelIdeal.Body
open Idealize.ShloMosaic Idealize.ShloMosaic.TcCoe Idealize.ShloMosaic.ValueIdx Idealize.ShloMosaic.RowConcat
open Idealize.SL.Sem Cert.Mlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The message function of the arrays the region finds: the two gathered endpoint arrays, the edge features, and
    the weights and biases as the kernel is handed them (weights [in, out], biases one row). -/
abbrev G (c : Dev nD) : S1600000x64.Idx → EReal :=
  edgeArr (V c main_v10) (V c main_v17) (V c main_arg2) (fun k q => V c main_v18 (ix2 k q)) (fun q => V c main_v22 (ix2 0 q))
    (fun k q => V c main_v19 (ix2 k q)) (fun q => V c main_v23 (ix2 0 q))

/-- The index maps over the grid: the data windows and the result window are at block (t, 0), the weight and bias
    windows at block (0, 0). -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- What point t writes back is block t of the message function. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S8000x64) hz, View.ld_unit_zero (S := S8000x32) hz, View.ld_unit_zero (S := S160x64) hz,
    View.ld_unit_zero (S := S1x64) hz, View.ld_unit_zero (S := S64x64) hz]
  obtain ⟨f70, f71, f00, f01, f10, f11, f20, f21, f30, f31, f40, f41, f50, f51, f60, f61⟩ := idx_facts t
  funext j
  show k0_pay1 (fun y => V c main_v10 (((cfg0.win 0).blk t).view.emb y)) (fun y => V c main_v17 (((cfg0.win 1).blk t).view.emb y))
      (fun y => V c main_arg2 (((cfg0.win 2).blk t).view.emb y)) (fun y => V c main_v18 (((cfg0.win 3).blk t).view.emb y))
      (fun y => V c main_v22 (((cfg0.win 4).blk t).view.emb y)) (fun y => V c main_v19 (((cfg0.win 5).blk t).view.emb y))
      (fun y => V c main_v23 (((cfg0.win 6).blk t).view.emb y)) j
    = G V c (((cfg0.win 7).blk t).view.emb j)
  refine edge_block (V c main_v10) (V c main_v17) (V c main_arg2) (V c main_v18) (V c main_v22) (V c main_v19) (V c main_v23) t.val
    (fun y => ((cfg0.win 0).blk t).view.emb y) (fun y => ((cfg0.win 1).blk t).view.emb y) (fun y => ((cfg0.win 2).blk t).view.emb y)
    (fun y => ((cfg0.win 3).blk t).view.emb y) (fun y => ((cfg0.win 4).blk t).view.emb y) (fun y => ((cfg0.win 5).blk t).view.emb y)
    (fun y => ((cfg0.win 6).blk t).view.emb y) ?_ ?_ ?_ ?_ ?_ ?_ ?_ j (((cfg0.win 7).blk t).view.emb j) ?_ ?_
  · intro y
    exact ⟨by show win0_0.index t (0 : Fin 2) * 8000 + 1 * (y 0).val = t.val * 8000 + (y 0).val; omega,
      by show win0_0.index t (1 : Fin 2) * 64 + 1 * (y 1).val = (y 1).val; omega⟩
  · intro y
    exact ⟨by show win0_1.index t (0 : Fin 2) * 8000 + 1 * (y 0).val = t.val * 8000 + (y 0).val; omega,
      by show win0_1.index t (1 : Fin 2) * 64 + 1 * (y 1).val = (y 1).val; omega⟩
  · intro y
    exact ⟨by show win0_2.index t (0 : Fin 2) * 8000 + 1 * (y 0).val = t.val * 8000 + (y 0).val; omega,
      by show win0_2.index t (1 : Fin 2) * 32 + 1 * (y 1).val = (y 1).val; omega⟩
  · intro y a
    match a with
    | ⟨0, _⟩ => show win0_3.index t (0 : Fin 2) * 160 + 1 * (y 0).val = (y 0).val; omega
    | ⟨1, _⟩ => show win0_3.index t (1 : Fin 2) * 64 + 1 * (y 1).val = (y 1).val; omega
  · intro y a
    match a with
    | ⟨0, _⟩ => show win0_4.index t (0 : Fin 2) * 1 + 1 * (y 0).val = (y 0).val; omega
    | ⟨1, _⟩ => show win0_4.index t (1 : Fin 2) * 64 + 1 * (y 1).val = (y 1).val; omega
  · intro y a
    match a with
    | ⟨0, _⟩ => show win0_5.index t (0 : Fin 2) * 64 + 1 * (y 0).val = (y 0).val; omega
    | ⟨1, _⟩ => show win0_5.index t (1 : Fin 2) * 64 + 1 * (y 1).val = (y 1).val; omega
  · intro y a
    match a with
    | ⟨0, _⟩ => show win0_6.index t (0 : Fin 2) * 1 + 1 * (y 0).val = (y 0).val; omega
    | ⟨1, _⟩ => show win0_6.index t (1 : Fin 2) * 64 + 1 * (y 1).val = (y 1).val; omega
  · show win0_7.index t (0 : Fin 2) * 8000 + 1 * (j 0).val = t.val * 8000 + (j 0).val; omega
  · show win0_7.index t (1 : Fin 2) * 64 + 1 * (j 1).val = (j 1).val; omega

/-- An index of the result array is in point t's block iff each coordinate is in the block's range on its axis. -/
theorem mem_blk (t : Fin cfg0.N) (i : S1600000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v26).slice (win0_7.rect t)).set ↔ _
  rw [View.set_slice_whole, Rect.mem_set_unit]
  exact Iff.rfl

/-- Every index of the result array is in some point's block: row r in block r / 8000. -/
theorem cover (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  have hN : (i 0).val / 8000 < cfg0.N := by
    show (i 0).val / 8000 < grid0.N
    rw [N_0]; omega
  refine ⟨⟨(i 0).val / 8000, hN⟩, flush0_7 _, ?_⟩
  rw [mem_blk]
  obtain ⟨f70, f71, -⟩ := idx_facts ⟨(i 0).val / 8000, hN⟩
  intro a
  match a with
  | ⟨0, _⟩ =>
    show win0_7.index ⟨(i 0).val / 8000, hN⟩ (0 : Fin 2) * 8000 ≤ (i 0).val
      ∧ (i 0).val < win0_7.index ⟨(i 0).val / 8000, hN⟩ (0 : Fin 2) * 8000 + 8000
    rw [f70]
    show (i 0).val / 8000 * 8000 ≤ (i 0).val ∧ (i 0).val < (i 0).val / 8000 * 8000 + 8000
    omega
  | ⟨1, _⟩ =>
    show win0_7.index ⟨(i 0).val / 8000, hN⟩ (1 : Fin 2) * 64 ≤ (i 1).val
      ∧ (i 1).val < win0_7.index ⟨(i 0).val / 8000, hN⟩ (1 : Fin 2) * 64 + 64
    rw [f71]
    omega

/-- The result array after the region's run is the message function of the arrays the region found. -/
theorem final (c : Dev nD) : (dat0 V c).arrAt 7 cfg0.N = G V c :=
  (dat0 V c).arrAt_eq_of_cover 7 (G V c) (fun t _ => flushed_eq V c t) cover

end Cert.KernelIdeal.EdgeArr

end
-- ==== Proof.NodeBody.lean ====
/-
  What the node kernel stores for a block of 10000 node rows, read at an entry (p, q): the result of node row p of
  the block — its own feature row and its aggregated-message row side by side, through a dense layer with silu and a
  second dense layer — at position q.
-/
import proofs.«133632_j5686536699929_1_alg».proof.Proof.Gen.KernelIdeal.Skeleton
import proofs.«133632_j5686536699929_1_alg».proof.Proof.DenseBlock
import Idealize.ShloMosaic.Lib.Pipeline.Value

noncomputable section

namespace Cert.KernelIdeal.Body

open Cert.KernelIdeal Cert.KernelIdeal.Gen Idealize.ShloMosaic Idealize.ShloMosaic.ValueIdx Idealize.ShloMosaic.RowConcat
open Idealize.ShloMosaic.PlainDot Cert.Mlp

theorem plain_n1 : IsPlain dot_S10000x128_S128x64_S10000x64_1_0_0_1_n_n := ⟨rfl, rfl, rfl, rfl, rfl, rfl⟩
theorem plain_n2 : IsPlain dot_S10000x64_S64x64_S10000x64_1_0_0_1_n_n := ⟨rfl, rfl, rfl, rfl, rfl, rfl⟩

/-- The node kernel's stored block at (p, q) is the result of the block's row p, at q. -/
theorem node_pay (x0 x1 : Vec Ideal S10000x64 .f32) (x2 : Vec Ideal S128x64 .f32) (x3 : Vec Ideal S1x64 .f32)
    (x4 : Vec Ideal S64x64 .f32) (x5 : Vec Ideal S1x64 .f32) (p : Fin 10000) (q : Fin 64) :
    k1_pay1 x0 x1 x2 x3 x4 x5 (ix2 p q)
      = nodeRow (rowOf x0 p) (rowOf x1 p) (fun k q => x2 (ix2 k q)) (fun q => x3 (ix2 0 q))
          (fun k q => x4 (ix2 k q)) (fun q => x5 (ix2 0 q)) q := by
  unfold k1_pay1
  simp only [shapeCast_self]
  rw [dense_block plain_n2]
  unfold nodeRow
  refine congrArg (fun x => dense x _ _ q) (funext fun k => ?_)
  show mulf (F := Ideal) _ (logistic _) (ix2 p k) = _
  rw [silu_dense_block plain_n1]
  refine congrArg (fun x => silu (dense x _ _ k)) (funext fun j => ?_)
  have hc := cat2_apply x0 (shapeCast S10000x64 x1 shapeCasts_S10000x64_S10000x64) concatenates_S10000x64_S10000x64_S10000x128_d1 p j
  exact hc.trans (by simp only [shapeCast_self])

end Cert.KernelIdeal.Body

end
-- ==== Proof.NodeBlock.lean ====
/-
  A block of 10000 consecutive node rows, starting at row T · 10000, against the whole arrays of 100 000 rows: what
  the node kernel stores for the block at (p, q) is the result of node row T · 10000 + p at q. The two data blocks
  are the rows T · 10000 … T · 10000 + 9999 of their arrays; the weight and bias blocks are their whole arrays.
-/
import proofs.«133632_j5686536699929_1_alg».proof.Proof.NodeBody

noncomputable section

namespace Cert.KernelIdeal.Body

open Cert.KernelIdeal Cert.KernelIdeal.Gen Idealize.ShloMosaic Idealize.ShloMosaic.ValueIdx Idealize.ShloMosaic.RowConcat
open Cert.Mlp

/-- An index map that keeps every coordinate is the identity. -/
theorem emb_id' {s : Shape} (e : s.Idx → s.Idx) (he : ∀ y a, (e y a).val = (y a).val) (y : s.Idx) : e y = y :=
  funext fun a => Fin.ext (he y a)

/-- Row p of a block whose rows are the rows T · 10000 + p of an array is that row of the array. -/
theorem row_of_block' {C : ℕ} (X : (⟨2, ![100000, C]⟩ : Shape).Idx → EReal)
    (e : (⟨2, ![10000, C]⟩ : Shape).Idx → (⟨2, ![100000, C]⟩ : Shape).Idx) (T : ℕ)
    (he : ∀ y, (e y 0).val = T * 10000 + (y 0).val ∧ (e y 1).val = (y 1).val)
    (p : Fin 10000) (r : Fin 100000) (hr : r.val = T * 10000 + p.val) :
    rowOf (fun y => X (e y)) p = rowOf X r := by
  funext k
  show X (e (ix2 p k)) = X (ix2 r k)
  refine congrArg X (funext fun a => Fin.ext ?_)
  match a with
  | ⟨0, _⟩ => exact ((he (ix2 p k)).1).trans hr.symm
  | ⟨1, _⟩ => exact (he (ix2 p k)).2

/-- The node kernel's stored block, at the block index j, is the whole-array result function at the array index i
    that j lands on (row T · 10000 + j₀, column j₁). -/
theorem node_block (x g : FVec Ideal S100000x64 .f32)
    (W2 : FVec Ideal S128x64 .f32) (W3 : FVec Ideal S1x64 .f32) (W4 : FVec Ideal S64x64 .f32) (W5 : FVec Ideal S1x64 .f32)
    (T : ℕ)
    (e0 e1 : S10000x64.Idx → S100000x64.Idx)
    (e2 : S128x64.Idx → S128x64.Idx) (e3 : S1x64.Idx → S1x64.Idx) (e4 : S64x64.Idx → S64x64.Idx) (e5 : S1x64.Idx → S1x64.Idx)
    (he0 : ∀ y, (e0 y 0).val = T * 10000 + (y 0).val ∧ (e0 y 1).val = (y 1).val)
    (he1 : ∀ y, (e1 y 0).val = T * 10000 + (y 0).val ∧ (e1 y 1).val = (y 1).val)
    (he2 : ∀ y a, (e2 y a).val = (y a).val) (he3 : ∀ y a, (e3 y a).val = (y a).val)
    (he4 : ∀ y a, (e4 y a).val = (y a).val) (he5 : ∀ y a, (e5 y a).val = (y a).val)
    (j : S10000x64.Idx) (i : S100000x64.Idx) (hi0 : (i 0).val = T * 10000 + (j 0).val) (hi1 : (i 1).val = (j 1).val) :
    k1_pay1 (F := Ideal) (fun y => x (e0 y)) (fun y => g (e1 y)) (fun y => W2 (e2 y)) (fun y => W3 (e3 y))
        (fun y => W4 (e4 y)) (fun y => W5 (e5 y)) j
      = nodeArr x g (fun k q => W2 (ix2 k q)) (fun q => W3 (ix2 0 q)) (fun k q => W4 (ix2 k q)) (fun q => W5 (ix2 0 q)) i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  have hr : r.val = T * 10000 + p.val := hi0
  rw [node_pay, nodeArr_apply, row_of_block' x e0 T he0 p r hr, row_of_block' g e1 T he1 p r hr]
  simp only [emb_id' e2 he2, emb_id' e3 he3, emb_id' e4 he4, emb_id' e5 he5]

end Cert.KernelIdeal.Body

end
-- ==== Proof.NodeArr.lean ====
/-
  The node region's result array after its 10 grid points: the whole-array result function of the arrays the region
  finds at entry. Point t stages rows t · 10000 … t · 10000 + 9999 of the node features and of the aggregated
  messages and the whole weight and bias arrays, and writes back the same rows of the result; each written block is
  the result function's block, and the 10 blocks cover the 100 000 rows (row r lies in block r / 10000).
-/
import proofs.«133632_j5686536699929_1_alg».proof.Proof.Gen.KernelIdeal.Frame
import proofs.«133632_j5686536699929_1_alg».proof.Proof.NodeBlock

set_option maxRecDepth 16384

noncomputable section

namespace Cert.KernelIdeal.NodeArr

open Cert.KernelIdeal Cert.KernelIdeal.Gen Cert.KernelIdeal.Body
open Idealize.ShloMosaic Idealize.ShloMosaic.TcCoe Idealize.ShloMosaic.ValueIdx Idealize.ShloMosaic.RowConcat
open Idealize.SL.Sem Cert.Mlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result function of the arrays the region finds: the node features, the aggregated messages, and the weights
    and biases as the kernel is handed them (weights [in, out], biases one row). -/
abbrev G (c : Dev nD) : S100000x64.Idx → EReal :=
  nodeArr (V c main_arg0) (V c main_v29) (fun k q => V c main_v20 (ix2 k q)) (fun q => V c main_v24 (ix2 0 q))
    (fun k q => V c main_v21 (ix2 k q)) (fun q => V c main_v25 (ix2 0 q))

/-- The index maps over the grid: the data windows and the result window are at block (t, 0), the weight and bias
    windows at block (0, 0). -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What point t writes back is block t of the result function. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S128x64) hz,
    View.ld_unit_zero (S := S1x64) hz, View.ld_unit_zero (S := S64x64) hz]
  obtain ⟨f60, f61, f00, f01, f10, f11, f20, f21, f30, f31, f40, f41, f50, f51⟩ := idx_facts t
  funext j
  show k1_pay1 (fun y => V c main_arg0 (((cfg1.win 0).blk t).view.emb y)) (fun y => V c main_v29 (((cfg1.win 1).blk t).view.emb y))
      (fun y => V c main_v20 (((cfg1.win 2).blk t).view.emb y)) (fun y => V c main_v24 (((cfg1.win 3).blk t).view.emb y))
      (fun y => V c main_v21 (((cfg1.win 4).blk t).view.emb y)) (fun y => V c main_v25 (((cfg1.win 5).blk t).view.emb y)) j
    = G V c (((cfg1.win 6).blk t).view.emb j)
  refine node_block (V c main_arg0) (V c main_v29) (V c main_v20) (V c main_v24) (V c main_v21) (V c main_v25) t.val
    (fun y => ((cfg1.win 0).blk t).view.emb y) (fun y => ((cfg1.win 1).blk t).view.emb y) (fun y => ((cfg1.win 2).blk t).view.emb y)
    (fun y => ((cfg1.win 3).blk t).view.emb y) (fun y => ((cfg1.win 4).blk t).view.emb y) (fun y => ((cfg1.win 5).blk t).view.emb y)
    ?_ ?_ ?_ ?_ ?_ ?_ j (((cfg1.win 6).blk t).view.emb j) ?_ ?_
  · intro y
    exact ⟨by show win1_0.index t (0 : Fin 2) * 10000 + 1 * (y 0).val = t.val * 10000 + (y 0).val; omega,
      by show win1_0.index t (1 : Fin 2) * 64 + 1 * (y 1).val = (y 1).val; omega⟩
  · intro y
    exact ⟨by show win1_1.index t (0 : Fin 2) * 10000 + 1 * (y 0).val = t.val * 10000 + (y 0).val; omega,
      by show win1_1.index t (1 : Fin 2) * 64 + 1 * (y 1).val = (y 1).val; omega⟩
  · intro y a
    match a with
    | ⟨0, _⟩ => show win1_2.index t (0 : Fin 2) * 128 + 1 * (y 0).val = (y 0).val; omega
    | ⟨1, _⟩ => show win1_2.index t (1 : Fin 2) * 64 + 1 * (y 1).val = (y 1).val; omega
  · intro y a
    match a with
    | ⟨0, _⟩ => show win1_3.index t (0 : Fin 2) * 1 + 1 * (y 0).val = (y 0).val; omega
    | ⟨1, _⟩ => show win1_3.index t (1 : Fin 2) * 64 + 1 * (y 1).val = (y 1).val; omega
  · intro y a
    match a with
    | ⟨0, _⟩ => show win1_4.index t (0 : Fin 2) * 64 + 1 * (y 0).val = (y 0).val; omega
    | ⟨1, _⟩ => show win1_4.index t (1 : Fin 2) * 64 + 1 * (y 1).val = (y 1).val; omega
  · intro y a
    match a with
    | ⟨0, _⟩ => show win1_5.index t (0 : Fin 2) * 1 + 1 * (y 0).val = (y 0).val; omega
    | ⟨1, _⟩ => show win1_5.index t (1 : Fin 2) * 64 + 1 * (y 1).val = (y 1).val; omega
  · show win1_6.index t (0 : Fin 2) * 10000 + 1 * (j 0).val = t.val * 10000 + (j 0).val; omega
  · show win1_6.index t (1 : Fin 2) * 64 + 1 * (j 1).val = (j 1).val; omega

/-- An index of the result array is in point t's block iff each coordinate is in the block's range on its axis. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v30).slice (win1_6.rect t)).set ↔ _
  rw [View.set_slice_whole, Rect.mem_set_unit]
  exact Iff.rfl

/-- Every index of the result array is in some point's block: row r in block r / 10000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 10000 < cfg1.N := by
    show (i 0).val / 10000 < grid1.N
    rw [N_1]; omega
  refine ⟨⟨(i 0).val / 10000, hN⟩, flush1_6 _, ?_⟩
  rw [mem_blk]
  obtain ⟨f60, f61, -⟩ := idx_facts ⟨(i 0).val / 10000, hN⟩
  intro a
  match a with
  | ⟨0, _⟩ =>
    show win1_6.index ⟨(i 0).val / 10000, hN⟩ (0 : Fin 2) * 10000 ≤ (i 0).val
      ∧ (i 0).val < win1_6.index ⟨(i 0).val / 10000, hN⟩ (0 : Fin 2) * 10000 + 10000
    rw [f60]
    show (i 0).val / 10000 * 10000 ≤ (i 0).val ∧ (i 0).val < (i 0).val / 10000 * 10000 + 10000
    omega
  | ⟨1, _⟩ =>
    show win1_6.index ⟨(i 0).val / 10000, hN⟩ (1 : Fin 2) * 64 ≤ (i 1).val
      ∧ (i 1).val < win1_6.index ⟨(i 0).val / 10000, hN⟩ (1 : Fin 2) * 64 + 64
    rw [f61]
    omega

/-- The result array after the region's run is the result function of the arrays the region found. -/
theorem final (c : Dev nD) : (dat1 V c).arrAt 6 cfg1.N = G V c :=
  (dat1 V c).arrAt_eq_of_cover 6 (G V c) (fun t _ => flushed_eq V c t) cover

end Cert.KernelIdeal.NodeArr

end
-- ==== Proof.RefValue.lean ====
/-
  The reference, stage by stage, against the row-wise specification. Its message array (after the second silu) is
  the message function of the two gathered endpoint arrays, the edge features and the four edge-layer parameters,
  and its result is the result function of the node features, the scattered sum of the messages and the four
  node-layer parameters. The reference writes the silu as z · (1 / (1 + e⁻ᶻ)) with the host's operations, which on
  the extended reals is z · σ(z); its matrix products contract over the shared axis exactly as the sums of the
  specification; its weights enter transposed ([in, out] from the stored [out, in]) and its biases broadcast from
  the stored vector. The gathers and the scatter-add are left as they are: both programs apply the same ones.
-/
import proofs.«133632_j5686536699929_1_alg».proof.Defs
import proofs.«133632_j5686536699929_1_alg».proof.Proof.Gen.ReferenceIdeal.Run
import proofs.«133632_j5686536699929_1_alg».proof.Proof.Gen.ReferenceIdeal.Read
import proofs.«133632_j5686536699929_1_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Idealize.ShloMosaic.RowConcat Cert.Mlp

/-- The host's spelling of the silu, z · (1 / (1 + e⁻ᶻ)) with the constant one given by its binary32 word, is z · σ(z). -/
theorem silu_host (z : Ideal .f32) :
    FloatOps.mulf z (FloatOps.hostDivf (FloatOps.ofBits (F := Ideal) .f32 0x3F800000#32)
      (FloatOps.addf (FloatOps.ofBits (F := Ideal) .f32 0x3F800000#32) (FloatOps.hostUnary .exp (FloatOps.hostNegf z)))) = silu z := by
  rw [Ideal.ofBits_def, Ideal.ofBits_one_f32]
  rfl

/-! ## The edge layers -/

/-- The joined edge input at (r, k): the three rows of edge r side by side. -/
theorem v18_apply (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (r : Fin 1600000) (k : Fin 160) :
    val_main_v18 (F := Ideal) x0 x1 x2 (ix2 r k)
      = cat3 (rowOf (val_main_v10 (F := Ideal) x0 x1) r) (rowOf (val_main_v17 (F := Ideal) x0 x1) r) (rowOf x2 r) k := by
  unfold val_main_v18
  exact cat3_apply _ _ _ _ r k

/-- The first edge layer before its silu, at (r, q). -/
theorem v23_apply' (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (r : Fin 1600000) (q : Fin 64) :
    val_main_v23 (F := Ideal) x0 x1 x2 x3 x4 (ix2 r q)
      = dense (cat3 (rowOf (val_main_v10 (F := Ideal) x0 x1) r) (rowOf (val_main_v17 (F := Ideal) x0 x1) r) (rowOf x2 r))
          (wT x3) (bv x4) q := by
  rw [val_main_v23_apply, val_main_v20_apply, val_main_v22_apply, val_main_v21_apply]
  unfold dense
  refine congrArg₂ (· + ·) (Finset.sum_congr rfl fun k _ => ?_) ?_
  · have el : lidx_main_v20 (ix2 r q) k = ix2 r k := funext fun a => Fin.ext (by match a with | ⟨0, _⟩ => rfl | ⟨1, _⟩ => rfl)
    have er : ridx_main_v20 (ix2 r q) k = ix2 k q := funext fun a => Fin.ext (by match a with | ⟨0, _⟩ => rfl | ⟨1, _⟩ => rfl)
    rw [el, er, v18_apply, val_main_v19_apply]
    exact congrArg (_ * x3 ·) (funext fun a => Fin.ext (by match a with | ⟨0, _⟩ => rfl | ⟨1, _⟩ => rfl))
  · exact congrArg x4 (funext fun a => Fin.ext (by match a with | ⟨0, _⟩ => rfl))

/-- The first edge layer with its silu, at (r, q). -/
theorem v24_apply' (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (r : Fin 1600000) (q : Fin 64) :
    val_main_v24 (F := Ideal) x0 x1 x2 x3 x4 (ix2 r q)
      = silu (dense (cat3 (rowOf (val_main_v10 (F := Ideal) x0 x1) r) (rowOf (val_main_v17 (F := Ideal) x0 x1) r) (rowOf x2 r))
          (wT x3) (bv x4) q) := by
  rw [val_main_v24_apply, val_main_call0_v5_apply, val_main_call0_v4_apply, val_main_call0_cst_0_apply, val_main_call0_v3_apply,
    val_main_call0_v2_apply, val_main_call0_cst_apply, val_main_call0_v1_apply, val_main_call0_v0_apply, silu_host, v23_apply']

/-- The second edge layer before its silu, at (r, q). -/
theorem v29_apply' (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (r : Fin 1600000) (q : Fin 64) :
    val_main_v29 (F := Ideal) x0 x1 x2 x3 x4 x5 x6 (ix2 r q)
      = dense (fun k => silu (dense (cat3 (rowOf (val_main_v10 (F := Ideal) x0 x1) r) (rowOf (val_main_v17 (F := Ideal) x0 x1) r) (rowOf x2 r))
          (wT x3) (bv x4) k)) (wT x5) (bv x6) q := by
  rw [val_main_v29_apply, val_main_v26_apply, val_main_v28_apply, val_main_v27_apply]
  unfold dense
  refine congrArg₂ (· + ·) (Finset.sum_congr rfl fun k _ => ?_) ?_
  · have el : lidx_main_v26 (ix2 r q) k = ix2 r k := funext fun a => Fin.ext (by match a with | ⟨0, _⟩ => rfl | ⟨1, _⟩ => rfl)
    have er : ridx_main_v26 (ix2 r q) k = ix2 k q := funext fun a => Fin.ext (by match a with | ⟨0, _⟩ => rfl | ⟨1, _⟩ => rfl)
    rw [el, er, v24_apply', val_main_v25_apply]
    exact congrArg (_ * x5 ·) (funext fun a => Fin.ext (by match a with | ⟨0, _⟩ => rfl | ⟨1, _⟩ => rfl))
  · exact congrArg x6 (funext fun a => Fin.ext (by match a with | ⟨0, _⟩ => rfl))

/-- The reference's message array is the message function of the gathered endpoint arrays and the edge features. -/
theorem v30_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v30 (F := Ideal) x0 x1 x2 x3 x4 x5 x6
      = edgeArr (val_main_v10 (F := Ideal) x0 x1) (val_main_v17 (F := Ideal) x0 x1) x2 (wT x3) (bv x4) (wT x5) (bv x6) := by
  funext i
  obtain ⟨r, q, rfl⟩ : ∃ (r : Fin 1600000) (q : Fin 64), i = ix2 r q := ⟨i 0, i 1, eq_ix2 i⟩
  rw [edgeArr_apply]
  unfold edgeRow
  rw [val_main_v30_apply, val_main_call1_v5_apply, val_main_call1_v4_apply, val_main_call1_cst_0_apply, val_main_call1_v3_apply,
    val_main_call1_v2_apply, val_main_call1_cst_apply, val_main_call1_v1_apply, val_main_call1_v0_apply, silu_host, v29_apply']

/-! ## The node layers -/

/-- The joined node input at (r, k): the node's feature row and its aggregated-message row side by side. -/
theorem v34_apply (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (r : Fin 100000) (k : Fin 128) :
    val_main_v34 (F := Ideal) x0 x1 x2 x3 x4 x5 x6 (ix2 r k)
      = cat2 (rowOf x0 r) (rowOf (val_main_v33 (F := Ideal) x0 x1 x2 x3 x4 x5 x6) r) k := by
  unfold val_main_v34
  exact cat2_apply _ _ _ r k

/-- The first node layer before its silu, at (r, q). -/
theorem v39_apply' (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S64, .f32⟩ : BufTy).Contents (Elt Ideal)) (r : Fin 100000) (q : Fin 64) :
    val_main_v39 (F := Ideal) x0 x1 x2 x3 x4 x5 x6 x7 x8 (ix2 r q)
      = dense (cat2 (rowOf x0 r) (rowOf (val_main_v33 (F := Ideal) x0 x1 x2 x3 x4 x5 x6) r)) (wT x7) (bv x8) q := by
  rw [val_main_v39_apply, val_main_v36_apply, val_main_v38_apply, val_main_v37_apply]
  unfold dense
  refine congrArg₂ (· + ·) (Finset.sum_congr rfl fun k _ => ?_) ?_
  · have el : lidx_main_v36 (ix2 r q) k = ix2 r k := funext fun a => Fin.ext (by match a with | ⟨0, _⟩ => rfl | ⟨1, _⟩ => rfl)
    have er : ridx_main_v36 (ix2 r q) k = ix2 k q := funext fun a => Fin.ext (by match a with | ⟨0, _⟩ => rfl | ⟨1, _⟩ => rfl)
    rw [el, er, v34_apply, val_main_v35_apply]
    exact congrArg (_ * x7 ·) (funext fun a => Fin.ext (by match a with | ⟨0, _⟩ => rfl | ⟨1, _⟩ => rfl))
  · exact congrArg x8 (funext fun a => Fin.ext (by match a with | ⟨0, _⟩ => rfl))

/-- The first node layer with its silu, at (r, q). -/
theorem v40_apply' (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S64, .f32⟩ : BufTy).Contents (Elt Ideal)) (r : Fin 100000) (q : Fin 64) :
    val_main_v40 (F := Ideal) x0 x1 x2 x3 x4 x5 x6 x7 x8 (ix2 r q)
      = silu (dense (cat2 (rowOf x0 r) (rowOf (val_main_v33 (F := Ideal) x0 x1 x2 x3 x4 x5 x6) r)) (wT x7) (bv x8) q) := by
  rw [val_main_v40_apply, val_main_call2_v5_apply, val_main_call2_v4_apply, val_main_call2_cst_0_apply, val_main_call2_v3_apply,
    val_main_call2_v2_apply, val_main_call2_cst_apply, val_main_call2_v1_apply, val_main_call2_v0_apply, silu_host, v39_apply']

/-- The reference's result is the result function of the node features and the scattered sum of the messages. -/
theorem v45_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v45 (F := Ideal) x0 x1 x2 x3 x4 x5 x6 x7 x8 x9 x10
      = nodeArr x0 (val_main_v33 (F := Ideal) x0 x1 x2 x3 x4 x5 x6) (wT x7) (bv x8) (wT x9) (bv x10) := by
  funext i
  obtain ⟨r, q, rfl⟩ : ∃ (r : Fin 100000) (q : Fin 64), i = ix2 r q := ⟨i 0, i 1, eq_ix2 i⟩
  rw [nodeArr_apply]
  unfold nodeRow
  rw [val_main_v45_apply, val_main_v42_apply, val_main_v44_apply, val_main_v43_apply]
  unfold dense
  refine congrArg₂ (· + ·) (Finset.sum_congr rfl fun k _ => ?_) ?_
  · have el : lidx_main_v42 (ix2 r q) k = ix2 r k := funext fun a => Fin.ext (by match a with | ⟨0, _⟩ => rfl | ⟨1, _⟩ => rfl)
    have er : ridx_main_v42 (ix2 r q) k = ix2 k q := funext fun a => Fin.ext (by match a with | ⟨0, _⟩ => rfl | ⟨1, _⟩ => rfl)
    rw [el, er, v40_apply', val_main_v41_apply]
    exact congrArg (_ * x9 ·) (funext fun a => Fin.ext (by match a with | ⟨0, _⟩ => rfl | ⟨1, _⟩ => rfl))
  · exact congrArg x10 (funext fun a => Fin.ext (by match a with | ⟨0, _⟩ => rfl))

/-- The scattered sum, with the message array named by the specification. -/
theorem v33_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S64x160, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v33 (F := Ideal) x0 x1 x2 x3 x4 x5 x6
      = Host.scatterAdd (F := Ideal) (φ := .f32) scatter_S100000x64_S1600000x1_S1600000x64_1_0_0_1 (val_main_v31 (F := Ideal)) (val_main_v32 (F := Ideal) x1)
          (edgeArr (val_main_v10 (F := Ideal) x0 x1) (val_main_v17 (F := Ideal) x0 x1) x2 (wT x3) (bv x4) (wT x5) (bv x6)) := by
  unfold val_main_v33
  rw [v30_eq]

end Cert.ReferenceIdeal.RefValue

end
-- ==== Proof.KValue.lean ====
/-
  The kernel program's result array as a function of its argument arrays. After the last region the result holds
  the node result function of: the node features (an argument no one writes), the scatter-add — by the edge's source
  index — of the edge region's message array into zeros, and the node-layer parameters as the host hands them to the
  region (weights transposed, biases reshaped to one row). The edge region's message array is the message function of
  the two gathers of the node features, the edge features and the edge-layer parameters handed over the same way.
  Read through the host operations, that is the reference's own last stage applied to the kernel's argument arrays:
  the gathers, the index arithmetic before them and the scatter-add are the same operations in both programs.
-/
import proofs.«133632_j5686536699929_1_alg».proof.Proof.EdgeArr
import proofs.«133632_j5686536699929_1_alg».proof.Proof.NodeArr
import proofs.«133632_j5686536699929_1_alg».proof.Proof.RefValue
import Idealize.ShloMosaic.Lib.ValueLayout
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.RowConcat
open Idealize.ShloMosaic.StableHlo
open Idealize.SL.Sem Cert.Mlp
open Cert.ReferenceIdeal.Read

/-! ## What the host operations leave for the regions: for any float values -/

section AnyFloats

variable {F : FTy → Type} [FloatOps F] (m : (ℓ : Loc nD τ sig) → Buf (Elt F) ℓ) (ρ : Dev nD → PrngReg)

/-- The gather by the source index. -/
theorem V1_v10 (c : Dev nD) : V1 m ρ c main_v10 = val_main_v10 (F := F) (m ((c : Thread nD τ).loc main_arg0)) (m ((c : Thread nD τ).loc main_arg1)) := by
  show StableHlo.after hostOps0 (W0 m ρ c) (Proc.devRef .tc main_v10) = _
  simp only [hostOps0]
  after_results_simp <;> rfl

/-- The gather by the target index. -/
theorem V1_v17 (c : Dev nD) : V1 m ρ c main_v17 = val_main_v17 (F := F) (m ((c : Thread nD τ).loc main_arg0)) (m ((c : Thread nD τ).loc main_arg1)) := by
  show StableHlo.after hostOps0 (W0 m ρ c) (Proc.devRef .tc main_v17) = _
  simp only [hostOps0]
  after_results_simp <;> rfl

theorem V1_arg2 (c : Dev nD) : V1 m ρ c main_arg2 = (m ((c : Thread nD τ).loc main_arg2)) := by
  show StableHlo.after hostOps0 (W0 m ρ c) (Proc.devRef .tc main_arg2) = _
  simp only [hostOps0]
  after_results_simp <;> rfl

/-- The source index vector. -/
theorem V1_v1 (c : Dev nD) : V1 m ρ c main_v1 = val_main_v1 (F := F) (m ((c : Thread nD τ).loc main_arg1)) := by
  show StableHlo.after hostOps0 (W0 m ρ c) (Proc.devRef .tc main_v1) = _
  simp only [hostOps0]
  after_results_simp <;> rfl

theorem V1_v18 (c : Dev nD) : V1 m ρ c main_v18 = transpose S160x64 [1, 0] (m ((c : Thread nD τ).loc main_arg3)) transposes_S64x160_S160x64_1_0 := by
  show StableHlo.after hostOps0 (W0 m ρ c) (Proc.devRef .tc main_v18) = _
  simp only [hostOps0]
  after_results_simp <;> rfl

theorem V1_v19 (c : Dev nD) : V1 m ρ c main_v19 = transpose S64x64 [1, 0] (m ((c : Thread nD τ).loc main_arg5)) transposes_S64x64_S64x64_1_0 := by
  show StableHlo.after hostOps0 (W0 m ρ c) (Proc.devRef .tc main_v19) = _
  simp only [hostOps0]
  after_results_simp <;> rfl

theorem V1_v22 (c : Dev nD) : V1 m ρ c main_v22 = shapeCast S1x64 (m ((c : Thread nD τ).loc main_arg4)) shapeCasts_S64_S1x64 := by
  show StableHlo.after hostOps0 (W0 m ρ c) (Proc.devRef .tc main_v22) = _
  simp only [hostOps0]
  after_results_simp <;> rfl

theorem V1_v23 (c : Dev nD) : V1 m ρ c main_v23 = shapeCast S1x64 (m ((c : Thread nD τ).loc main_arg6)) shapeCasts_S64_S1x64 := by
  show StableHlo.after hostOps0 (W0 m ρ c) (Proc.devRef .tc main_v23) = _
  simp only [hostOps0]
  after_results_simp <;> rfl

theorem W2_v1 (c : Dev nD) : W2 m ρ c (Proc.devRef .tc main_v1) = val_main_v1 (F := F) (m ((c : Thread nD τ).loc main_arg1)) :=
  (W2_of_ne m ρ c main_v1 (by decide)).trans (V1_v1 m ρ c)

theorem V3_arg0 (c : Dev nD) : V3 m ρ c main_arg0 = (m ((c : Thread nD τ).loc main_arg0)) := by
  show StableHlo.after hostOps1 (W2 m ρ c) (Proc.devRef .tc main_arg0) = _
  simp only [hostOps1]
  after_results
  rw [W2_of_ne m ρ c main_arg0 (by decide)]
  show StableHlo.after hostOps0 (W0 m ρ c) (Proc.devRef .tc main_arg0) = _
  simp only [hostOps0]
  after_results_simp <;> rfl

theorem V3_v20 (c : Dev nD) : V3 m ρ c main_v20 = transpose S128x64 [1, 0] (m ((c : Thread nD τ).loc main_arg7)) transposes_S64x128_S128x64_1_0 := by
  show StableHlo.after hostOps1 (W2 m ρ c) (Proc.devRef .tc main_v20) = _
  simp only [hostOps1]
  after_results
  rw [W2_of_ne m ρ c main_v20 (by decide)]
  show StableHlo.after hostOps0 (W0 m ρ c) (Proc.devRef .tc main_v20) = _
  simp only [hostOps0]
  after_results_simp <;> rfl

theorem V3_v21 (c : Dev nD) : V3 m ρ c main_v21 = transpose S64x64 [1, 0] (m ((c : Thread nD τ).loc main_arg9)) transposes_S64x64_S64x64_1_0 := by
  show StableHlo.after hostOps1 (W2 m ρ c) (Proc.devRef .tc main_v21) = _
  simp only [hostOps1]
  after_results
  rw [W2_of_ne m ρ c main_v21 (by decide)]
  show StableHlo.after hostOps0 (W0 m ρ c) (Proc.devRef .tc main_v21) = _
  simp only [hostOps0]
  after_results_simp <;> rfl

theorem V3_v24 (c : Dev nD) : V3 m ρ c main_v24 = shapeCast S1x64 (m ((c : Thread nD τ).loc main_arg8)) shapeCasts_S64_S1x64 := by
  show StableHlo.after hostOps1 (W2 m ρ c) (Proc.devRef .tc main_v24) = _
  simp only [hostOps1]
  after_results
  rw [W2_of_ne m ρ c main_v24 (by decide)]
  show StableHlo.after hostOps0 (W0 m ρ c) (Proc.devRef .tc main_v24) = _
  simp only [hostOps0]
  after_results_simp <;> rfl

theorem V3_v25 (c : Dev nD) : V3 m ρ c main_v25 = shapeCast S1x64 (m ((c : Thread nD τ).loc main_arg10)) shapeCasts_S64_S1x64 := by
  show StableHlo.after hostOps1 (W2 m ρ c) (Proc.devRef .tc main_v25) = _
  simp only [hostOps1]
  after_results
  rw [W2_of_ne m ρ c main_v25 (by decide)]
  show StableHlo.after hostOps0 (W0 m ρ c) (Proc.devRef .tc main_v25) = _
  simp only [hostOps0]
  after_results_simp <;> rfl

/-- The aggregated messages: the scatter-add, by the source index, of the edge region's result array into zeros. -/
theorem V3_v29 (c : Dev nD) :
    V3 m ρ c main_v29
      = Host.scatterAdd (F := F) (φ := .f32) scatter_S100000x64_S1600000x1_S1600000x64_1_0_0_1 (val_main_v31 (F := F)) (val_main_v32 (F := F) (m ((c : Thread nD τ).loc main_arg1)))
          (W2 m ρ c (Proc.devRef .tc main_v26)) := by
  show StableHlo.after hostOps1 (W2 m ρ c) (Proc.devRef .tc main_v29) = _
  simp only [hostOps1]
  after_results
  rw [W2_v1]
  rfl

end AnyFloats

/-! ## On the extended reals -/

variable (m : (ℓ : Loc nD τ sig) → Buf (Elt Ideal) ℓ) (ρ : Dev nD → PrngReg)

/-- A weight matrix handed over transposed, read as the layer uses it. -/
theorem w_of_transpose {K : ℕ} (W : (⟨2, ![64, K]⟩ : Shape).Idx → EReal)
    (h : (⟨2, ![64, K]⟩ : Shape).Transposes [1, 0] ⟨2, ![K, 64]⟩)
    (X : (⟨2, ![K, 64]⟩ : Shape).Idx → EReal) (hX : X = transpose ⟨2, ![K, 64]⟩ [1, 0] W h) :
    (fun (k : Fin K) (q : Fin 64) => X (ix2 k q)) = wT W := by
  subst hX
  funext k q
  exact transpose_ix2_apply W h k q

/-- A bias vector handed over as one row, read by output position. -/
theorem b_of_reshape (B : (⟨1, ![64]⟩ : Shape).Idx → EReal) (h : (⟨1, ![64]⟩ : Shape).ShapeCasts ⟨2, ![1, 64]⟩)
    (X : (⟨2, ![1, 64]⟩ : Shape).Idx → EReal) (hX : X = shapeCast ⟨2, ![1, 64]⟩ B h) :
    (fun (q : Fin 64) => X (ix2 0 q)) = bv B := by
  subst hX
  funext q
  exact shapeCast_a_1a_apply B h 0 q

/-- The edge region's message array, in the reference's names for the gathers. -/
theorem W2_v26 (c : Dev nD) :
    W2 m ρ c (Proc.devRef .tc main_v26)
      = edgeArr (val_main_v10 (F := Ideal) (m ((c : Thread nD τ).loc main_arg0)) (m ((c : Thread nD τ).loc main_arg1))) (val_main_v17 (F := Ideal) (m ((c : Thread nD τ).loc main_arg0)) (m ((c : Thread nD τ).loc main_arg1))) (m ((c : Thread nD τ).loc main_arg2))
          (wT (m ((c : Thread nD τ).loc main_arg3))) (bv (m ((c : Thread nD τ).loc main_arg4))) (wT (m ((c : Thread nD τ).loc main_arg5))) (bv (m ((c : Thread nD τ).loc main_arg6))) := by
  refine (W2_arr m ρ c 7).trans ((EdgeArr.final (V1 m ρ) c).trans ?_)
  show edgeArr (V1 m ρ c main_v10) (V1 m ρ c main_v17) (V1 m ρ c main_arg2) (fun k q => V1 m ρ c main_v18 (ix2 k q))
      (fun q => V1 m ρ c main_v22 (ix2 0 q)) (fun k q => V1 m ρ c main_v19 (ix2 k q)) (fun q => V1 m ρ c main_v23 (ix2 0 q)) = _
  rw [V1_v10, V1_v17, V1_arg2, w_of_transpose _ _ _ (V1_v18 m ρ c), b_of_reshape _ _ _ (V1_v22 m ρ c),
    w_of_transpose _ _ _ (V1_v19 m ρ c), b_of_reshape _ _ _ (V1_v23 m ρ c)]

/-- The aggregated messages are the reference's scattered sum. -/
theorem V3_v29_ref (c : Dev nD) :
    V3 m ρ c main_v29 = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.ReferenceIdeal.RefValue.v33_eq, V3_v29, W2_v26]
  rfl

/-- The kernel program's result array is the reference's last stage of the kernel's argument arrays. -/
theorem result (c : Dev nD) :
    W4 m ρ c (Proc.devRef .tc main_v30)
      = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.ReferenceIdeal.RefValue.v45_eq]
  refine (W4_arr m ρ c 6).trans ((NodeArr.final (V3 m ρ) c).trans ?_)
  show nodeArr (V3 m ρ c main_arg0) (V3 m ρ c main_v29) (fun k q => V3 m ρ c main_v20 (ix2 k q))
      (fun q => V3 m ρ c main_v24 (ix2 0 q)) (fun k q => V3 m ρ c main_v21 (ix2 k q)) (fun q => V3 m ρ c main_v25 (ix2 0 q)) = _
  rw [V3_arg0, V3_v29_ref, w_of_transpose _ _ _ (V3_v20 m ρ c), b_of_reshape _ _ _ (V3_v24 m ρ c),
    w_of_transpose _ _ _ (V3_v21 m ρ c), b_of_reshape _ _ _ (V3_v25 m ρ c)]

end Cert.KernelIdeal.KValue

end
-- ==== Proof.lean ====
/-
  One message-passing layer of a graph network: a Pallas kernel for the edge layers and one for the node layers, with
  the gathers x[row], x[col] and the scatter-add by source node left to the host, against the plain jnp reference.

  On the extended reals the two programs compute one function. For an edge e with endpoint rows a = x[row e],
  b = x[col e] and feature row f, the message is silu(silu([a | b | f] · W₁ᵀ + β₁) · W₂ᵀ + β₂); the messages are summed
  into their source nodes; for a node n with feature row a and summed messages g the result is
  silu([a | g] · V₁ᵀ + γ₁) · V₂ᵀ + γ₂. The kernel computes the messages 8000 edge rows at a time and the results
  10000 node rows at a time, and each row's value depends on that row alone, so the blocks are the blocks of the
  whole-array function and cover it. Its silu is z · σ(z) with the logistic operation, the reference's is
  z · (1 / (1 + e⁻ᶻ)): one function. Its matrix products take operands narrowed to a shorter float format, which on
  the extended reals is no change, and accumulate into zero; the reference's are the same sums. The gathers, the index
  arithmetic before them and the scatter-add are the same host operations in both programs and are never opened. No
  law that needs finiteness is used: only the sums and products as they stand.

  The frames of the two kernel programs are the generated ones; the reference's frame is its generated run. The kernel
  program's run with its result array named is the launch theorem called once more with a wider post.
-/
import proofs.«133632_j5686536699929_1_alg».proof.Defs
import proofs.«133632_j5686536699929_1_alg».proof.Proof.Gen.Kernel
import proofs.«133632_j5686536699929_1_alg».proof.Proof.Gen.Kernel.Skeleton
import proofs.«133632_j5686536699929_1_alg».proof.Proof.Gen.Kernel.Launch
import proofs.«133632_j5686536699929_1_alg».proof.Proof.Gen.Kernel.Points
import proofs.«133632_j5686536699929_1_alg».proof.Proof.Gen.Kernel.Frame
import proofs.«133632_j5686536699929_1_alg».proof.Proof.Gen.KernelIdeal
import proofs.«133632_j5686536699929_1_alg».proof.Proof.Gen.KernelIdeal.Skeleton
import proofs.«133632_j5686536699929_1_alg».proof.Proof.Gen.KernelIdeal.Launch
import proofs.«133632_j5686536699929_1_alg».proof.Proof.Gen.KernelIdeal.Points
import proofs.«133632_j5686536699929_1_alg».proof.Proof.Gen.KernelIdeal.Frame
import proofs.«133632_j5686536699929_1_alg».proof.Proof.Gen.ReferenceIdeal
import proofs.«133632_j5686536699929_1_alg».proof.Proof.Gen.ReferenceIdeal.Run
import proofs.«133632_j5686536699929_1_alg».proof.Proof.Gen.ReferenceIdeal.Read
import proofs.«133632_j5686536699929_1_alg».proof.Proof.Gen.Pre_finite_inputs
import proofs.«133632_j5686536699929_1_alg».proof.Proof.KernelIdealRun
import proofs.«133632_j5686536699929_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array at the reference's last
    stage of the kernel program's argument arrays. -/
theorem algebraic : Cert.algebraic_KernelIdeal_ReferenceIdeal := by
  intro m ρ m' ρ' _ hagree
  refine ⟨fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result m ρ c), (h c).2⟩)
      (Cert.KernelIdeal.RunV.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v45_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
